-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S1024x1024 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x64x512 .f32) (main_arg2 : FVec F S512x512 .f32) (main_arg3 : FVec F S512 .f32) (main_arg4 : FVec F S512x512 .f32) (main_arg5 : FVec F S512 .f32) (main_arg6 : FVec F S1024x1024 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S512x1024 : Shape := ⟨2, ![512, 1024]⟩
abbrev S1x512 : Shape := ⟨2, ![1, 512]⟩
abbrev S1x1024 : Shape := ⟨2, ![1, 1024]⟩
abbrev S4x256x1024 : Shape := ⟨3, ![4, 256, 1024]⟩
abbrev S1x256x512 : Shape := ⟨3, ![1, 256, 512]⟩
abbrev S1x256x1024 : Shape := ⟨3, ![1, 256, 1024]⟩
abbrev S256x512 : Shape := ⟨2, ![256, 512]⟩
abbrev S256x1024 : Shape := ⟨2, ![256, 1024]⟩
abbrev S4x64x1024 : Shape := ⟨3, ![4, 64, 1024]⟩
abbrev S1x64x512 : Shape := ⟨3, ![1, 64, 512]⟩
abbrev S1x64x1024 : Shape := ⟨3, ![1, 64, 1024]⟩
abbrev S64x512 : Shape := ⟨2, ![64, 512]⟩
abbrev S64x1024 : Shape := ⟨2, ![64, 1024]⟩
abbrev S4x256x64x1024 : Shape := ⟨4, ![4, 256, 64, 1024]⟩
abbrev S1x32x1024 : Shape := ⟨3, ![1, 32, 1024]⟩
abbrev S1x32x64x1024 : Shape := ⟨4, ![1, 32, 64, 1024]⟩
abbrev S1x32x1x1024 : Shape := ⟨4, ![1, 32, 1, 1024]⟩
abbrev S1x1x64x1024 : Shape := ⟨4, ![1, 1, 64, 1024]⟩
abbrev S1x1x1x1024 : Shape := ⟨4, ![1, 1, 1, 1024]⟩

abbrev nBuf : Space → Nat
  | .hbm => 16
  | .vmem => 21
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1x512, .f32⟩
  | .hbm, ⟨11, _⟩ => ⟨S1x512, .f32⟩
  | .hbm, ⟨12, _⟩ => ⟨S1x1024, .f32⟩
  | .hbm, ⟨13, _⟩ => ⟨S4x256x1024, .f32⟩
  | .hbm, ⟨14, _⟩ => ⟨S4x64x1024, .f32⟩
  | .hbm, ⟨15, _⟩ => ⟨S4x256x64x1024, .f32⟩
  | .local _ .vmem, ⟨0, _⟩ => ⟨S1x256x512, .f32⟩
  | .local _ .vmem, ⟨1, _⟩ => ⟨S1x256x512, .f32⟩
  | .local _ .vmem, ⟨2, _⟩ => ⟨S512x512, .f32⟩
  | .local _ .vmem, ⟨3, _⟩ => ⟨S1x512, .f32⟩
  | .local _ .vmem, ⟨4, _⟩ => ⟨S512x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x64x512, .f32⟩
  | .local _ .vmem, ⟨8, _⟩ => ⟨S1x64x512, .f32⟩
  | .local _ .vmem, ⟨9, _⟩ => ⟨S512x512, .f32⟩
  | .local _ .vmem, ⟨10, _⟩ => ⟨S1x512, .f32⟩
  | .local _ .vmem, ⟨11, _⟩ => ⟨S512x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x1024, .f32⟩
  | .local _ .vmem, ⟨19, _⟩ => ⟨S1x32x64x1024, .f32⟩
  | .local _ .vmem, ⟨20, _⟩ => ⟨S1x32x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x32x64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S1024x1024_S512x1024_0_0 : S1024x1024.Slices ![0, 0] S512x1024
  slices_S1024x1024_S512x1024_512_0 : S1024x1024.Slices ![512, 0] S512x1024
  shapeCasts_S512_S1x512 : S512.ShapeCasts S1x512
  shapeCasts_S1024_S1x1024 : S1024.ShapeCasts S1x1024
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  broadcasts_S1x512_S64x512 : S1x512.Broadcasts S64x512
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S1x32x1024 : S1x32x1024.ShapeCasts S1x32x1024
  shapeCasts_S1x64x1024_S1x64x1024 : S1x64x1024.ShapeCasts S1x64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x32x1024_S1x32x1x1024 : S1x32x1024.ShapeCasts S1x32x1x1024
  shapeCasts_S1x64x1024_S1x1x64x1024 : S1x64x1024.ShapeCasts S1x1x64x1024
  shapeCasts_S1x1024_S1x1x1x1024 : S1x1024.ShapeCasts S1x1x1x1024
  broadcasts_S1x32x1x1024_S1x32x64x1024 : S1x32x1x1024.Broadcasts S1x32x64x1024
  broadcasts_S1x1x64x1024_S1x32x64x1024 : S1x1x64x1024.Broadcasts S1x32x64x1024
  broadcasts_S1x1x1x1024_S1x32x64x1024 : S1x1x1x1024.Broadcasts S1x32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  dot_S256x512_S512x512_S256x512_1_0_0_1_n_n_wf : DotDims.WF S256x512 S512x512 S256x512 [1] [0] [0] [1] [] []
  dot_S256x512_S512x1024_S256x1024_1_0_0_1_n_n_wf : DotDims.WF S256x512 S512x1024 S256x1024 [1] [0] [0] [1] [] []
  dot_S64x512_S512x512_S64x512_1_0_0_1_n_n_wf : DotDims.WF S64x512 S512x512 S64x512 [1] [0] [0] [1] [] []
  dot_S64x512_S512x1024_S64x1024_1_0_0_1_n_n_wf : DotDims.WF S64x512 S512x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x256x512.size a
  hwx0_0 : ∀ i : grid0.Coords, EltTy.bits .f32 = 32 ∨ (Rect.block (s := S4x256x512) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S4x256x1024.size a
  hwx0_4 : ∀ i : grid0.Coords, EltTy.bits .f32 = 32 ∨ (Rect.block (s := S4x256x1024) S1x256x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x512.size a ≤ S4x64x512.size a
  hwx1_0 : ∀ i : grid1.Coords, EltTy.bits .f32 = 32 ∨ (Rect.block (s := S4x64x512) S1x64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x1024.size a
  hwx1_3 : ∀ i : grid1.Coords, EltTy.bits .f32 = 32 ∨ (Rect.block (s := S512x1024) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x1024.size a ≤ S4x64x1024.size a
  hwx1_4 : ∀ i : grid1.Coords, EltTy.bits .f32 = 32 ∨ (Rect.block (s := S4x64x1024) S1x64x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S4x256x1024.size a
  hwx2_0 : ∀ i : grid2.Coords, EltTy.bits .f32 = 32 ∨ (Rect.block (s := S4x256x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S4x64x1024.size a
  hwx2_1 : ∀ i : grid2.Coords, EltTy.bits .f32 = 32 ∨ (Rect.block (s := S4x64x1024) S1x64x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x32x64x1024.size a ≤ S4x256x64x1024.size a
  hwx2_3 : ∀ i : grid2.Coords, EltTy.bits .f32 = 32 ∨ (Rect.block (s := S4x256x64x1024) S1x32x64x1024.size (cc2_transform_3 i) (hinb2_3 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x64x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x32x64x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1x1x512 : Shape := ⟨3, ![1, 1, 512]⟩
abbrev S4x256x1x512 : Shape := ⟨4, ![4, 256, 1, 512]⟩
abbrev S4x256x64x512 : Shape := ⟨4, ![4, 256, 64, 512]⟩
abbrev S4x1x64x512 : Shape := ⟨4, ![4, 1, 64, 512]⟩
abbrev S4x256x64x1024 : Shape := ⟨4, ![4, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S4x256x512, .f32⟩
  | .hbm, ⟨9, _⟩ => ⟨S1x1x512, .f32⟩
  | .hbm, ⟨10, _⟩ => ⟨S4x256x512, .f32⟩
  | .hbm, ⟨11, _⟩ => ⟨S4x256x512, .f32⟩
  | .hbm, ⟨12, _⟩ => ⟨S4x64x512, .f32⟩
  | .hbm, ⟨13, _⟩ => ⟨S1x1x512, .f32⟩
  | .hbm, ⟨14, _⟩ => ⟨S4x64x512, .f32⟩
  | .hbm, ⟨15, _⟩ => ⟨S4x64x512, .f32⟩
  | .hbm, ⟨16, _⟩ => ⟨S4x256x1x512, .f32⟩
  | .hbm, ⟨17, _⟩ => ⟨S4x256x64x512, .f32⟩
  | .hbm, ⟨18, _⟩ => ⟨S4x1x64x512, .f32⟩
  | .hbm, ⟨19, _⟩ => ⟨S4x256x64x512, .f32⟩
  | .hbm, ⟨20, _⟩ => ⟨S4x256x64x1024, .f32⟩
  | .hbm, ⟨21, _⟩ => ⟨S4x256x64x1024, .f32⟩
  | .hbm, ⟨22, _⟩ => ⟨S4x256x64x1024, .f32⟩
  | .hbm, ⟨23, _⟩ => ⟨S1x1x1x1024, .f32⟩
  | .hbm, ⟨24, _⟩ => ⟨S4x256x64x1024, .f32⟩
  | .hbm, ⟨25, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x256x512_0_1_2 : S1x1x512.BroadcastsInDim S4x256x512 (![0, 1, 2] : Fin 3 → Fin S4x256x512.rank)
  bcast_S1x1x512_S4x64x512_0_1_2 : S1x1x512.BroadcastsInDim S4x64x512 (![0, 1, 2] : Fin 3 → Fin S4x64x512.rank)
  bcast_S4x256x512_S4x256x1x512_0_1_3 : S4x256x512.BroadcastsInDim S4x256x1x512 (![0, 1, 3] : Fin 3 → Fin S4x256x1x512.rank)
  bcast_S4x256x1x512_S4x256x64x512_0_1_2_3 : S4x256x1x512.BroadcastsInDim S4x256x64x512 (![0, 1, 2, 3] : Fin 4 → Fin S4x256x64x512.rank)
  bcast_S4x64x512_S4x1x64x512_0_2_3 : S4x64x512.BroadcastsInDim S4x1x64x512 (![0, 2, 3] : Fin 3 → Fin S4x1x64x512.rank)
  bcast_S4x1x64x512_S4x256x64x512_0_1_2_3 : S4x1x64x512.BroadcastsInDim S4x256x64x512 (![0, 1, 2, 3] : Fin 4 → Fin S4x256x64x512.rank)
  concatenates_S4x256x64x512_S4x256x64x512_S4x256x64x1024_d3 : Shape.Concatenates [S4x256x64x512, S4x256x64x512] S4x256x64x1024 3
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x512_S512x512_S4x256x512_2_0_01_1_n_n_wf : DotDims.WF S4x256x512 S512x512 S4x256x512 [2] [0] [0, 1] [1] [] []
  dot_S4x64x512_S512x512_S4x64x512_2_0_01_1_n_n_wf : DotDims.WF S4x64x512 S512x512 S4x64x512 [2] [0] [0, 1] [1] [] []
  dot_S4x256x64x1024_S1024x1024_S4x256x64x1024_3_0_012_1_n_n_wf : DotDims.WF S4x256x64x1024 S1024x1024 S4x256x64x1024 [3] [0] [0, 1, 2] [1] [] []

variable [Facts₀]

def dot_S4x256x512_S512x512_S4x256x512_2_0_01_1_n_n : DotDims S4x256x512 S512x512 S4x256x512 where
  lhsContracting := [2]
  rhsContracting := [0]
  lhsNonContracting := [0, 1]
  rhsNonContracting := [1]
  lhsBatch := []
  rhsBatch := []
  wf := dot_S4x256x512_S512x512_S4x256x512_2_0_01_1_n_n_wf
def dot_S4x64x512_S512x512_S4x64x512_2_0_01_1_n_n : DotDims S4x64x512 S512x512 S4x64x512 where
  lhsContracting := [2]
  rhsContracting := [0]
  lhsNonContracting := [0, 1]
  rhsNonContracting := [1]
  lhsBatch := []
  rhsBatch := []
  wf := dot_S4x64x512_S512x512_S4x64x512_2_0_01_1_n_n_wf
def dot_S4x256x64x1024_S1024x1024_S4x256x64x1024_3_0_012_1_n_n : DotDims S4x256x64x1024 S1024x1024 S4x256x64x1024 where
  lhsContracting := [3]
  rhsContracting := [0]
  lhsNonContracting := [0, 1, 2]
  rhsNonContracting := [1]
  lhsBatch := []
  rhsBatch := []
  wf := dot_S4x256x64x1024_S1024x1024_S4x256x64x1024_3_0_012_1_n_n_wf

class Facts : Prop extends Facts₀ where

variable [Facts]
-- ==== Proof.LibMatmulPlain.lean ====
/-
  A general lemma on the kernel-side matrix product at the exact extended reals.

  `tpu.matmul` with the plain dimension numbers `<[1], [0], [0], [1]>` (an m×k matrix by a k×n matrix, no batch
  axis) into an accumulator that is the zero splat computes, at output entry (a, b), the sum over the contracted
  coordinate c of A[a, c] · B[c, b]: no rounding, no chunk order, and the zero accumulator adds nothing.
  It is the kernel-side twin of the host product `StackMember.dotGeneral_plain_apply`.
-/
import Idealize.ShloMosaic.PureOps.Ideal.Laws
import Idealize.ShloMosaic.Lib.ValueIdx

noncomputable section

namespace Idealize.ShloMosaic.LibMatmulPlain

open Idealize.ShloMosaic Idealize.ShloMosaic.ValueIdx

/-- Entry (a, b) of an m×k by k×n product accumulated into zero is `∑ c, A[a, c] · B[c, b]` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul (DotDims.plain m k n) prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibMatmulPlain

end
-- ==== Proof.ProjPayload.lean ====
/-
  The projection kernel's stored value at one entry, for any number of rows L in the block.

  The body casts its [1, L, 512] block to [L, 512], multiplies by the [512, 512] weight, adds the [1, 512] bias row
  broadcast down the rows, applies tanh, multiplies by the [512, 1024] output weight and casts the [L, 1024] product
  back to [1, L, 1024]. A change of float format is the identity on the extended reals, a product accumulated into the
  zero splat is the plain sum of products, and the casts and the broadcast only move indices. So entry (0, r, v) of the
  stored block is `∑_m tanh(∑_d x[0, r, d] · w[d, m] + bias[0, m]) · wj[m, v]`.
-/
import Idealize.ShloMosaic.Lib.Pipeline.Value
import proofs.«111048_j21492016349402_1_alg».proof.Proof.LibMatmulPlain

noncomputable section

namespace Cert.ProjPayload

open Idealize.ShloMosaic Idealize.ShloMosaic.ValueIdx Idealize.ShloMosaic.LibMatmulPlain

/-- Dropping the leading unit coordinate of (0, r, v) leaves (r, v). -/
theorem tail_ix3 {n1 n2 : Nat} (r : Fin n1) (v : Fin n2) :
    (fun a : Fin 2 => (ix3 (0 : Fin 1) r v) a.succ) = ix2 r v :=
  funext fun a => by match a with | ⟨0, _⟩ => rfl | ⟨1, _⟩ => rfl

/-- The stored block of the projection body at entry (0, r, v). -/
theorem proj_payload_apply {L : Nat}
    (hx : (⟨3, ![1, L, 512]⟩ : Shape).ShapeCasts ⟨2, ![L, 512]⟩)
    (hb1 : (⟨2, ![1, 512]⟩ : Shape).ShapeCasts ⟨2, ![1, 512]⟩)
    (hb2 : (⟨2, ![1, 512]⟩ : Shape).Broadcasts ⟨2, ![L, 512]⟩)
    (hw : (⟨2, ![512, 1024]⟩ : Shape).ShapeCasts ⟨2, ![512, 1024]⟩)
    (ho : (⟨2, ![L, 1024]⟩ : Shape).ShapeCasts ⟨3, ![1, L, 1024]⟩)
    (hbits : FTy.bf16.bits < FTy.f32.bits)
    (x0 : FVec Ideal ⟨3, ![1, L, 512]⟩ .f32) (x1 : FVec Ideal ⟨2, ![512, 512]⟩ .f32)
    (x2 : FVec Ideal ⟨2, ![1, 512]⟩ .f32) (x3 : FVec Ideal ⟨2, ![512, 1024]⟩ .f32)
    (r : Fin L) (v : Fin 1024) :
    shapeCast ⟨3, ![1, L, 1024]⟩
      (matmul (DotDims.plain L 512 1024) none
        (truncf .bf16 (tanh (addf
          (matmul (DotDims.plain L 512 512) none (truncf .bf16 (shapeCast ⟨2, ![L, 512]⟩ x0 hx) hbits) (truncf .bf16 x1 hbits)
            (constant (F := Ideal) ⟨2, ![L, 512]⟩ .f32 0x00000000#32))
          (broadcastTo ⟨2, ![L, 512]⟩ (shapeCast ⟨2, ![1, 512]⟩ x2 hb1) hb2))) hbits)
        (truncf .bf16 (shapeCast ⟨2, ![512, 1024]⟩ x3 hw) hbits)
        (constant (F := Ideal) ⟨2, ![L, 1024]⟩ .f32 0x00000000#32)) ho (ix3 (0 : Fin 1) r v)
    = ∑ m : Fin 512, Ideal.tanh ((∑ d : Fin 512, x0 (ix3 (0 : Fin 1) r d) * x1 (ix2 d m)) + x2 (ix2 (0 : Fin 1) m)) * x3 (ix2 m v) := by
  rw [shapeCast_addUnit_apply, tail_ix3, matmul_plain_zero_apply, shapeCast_self, shapeCast_self]
  refine Finset.sum_congr rfl fun m _ => ?_
  show Ideal.tanh (matmul (DotDims.plain L 512 512) none (truncf .bf16 (shapeCast ⟨2, ![L, 512]⟩ x0 hx) hbits) (truncf .bf16 x1 hbits)
      (constant (F := Ideal) ⟨2, ![L, 512]⟩ .f32 0x00000000#32) (ix2 r m) + broadcastTo ⟨2, ![L, 512]⟩ x2 hb2 (ix2 r m)) * x3 (ix2 m v) = _
  rw [matmul_plain_zero_apply,
    broadcastTo_apply x2 hb2 (ix2 r m) (ix2 (0 : Fin 1) m) (fun a => by
      match a with
      | ⟨0, _⟩ => show 0 = if (1 : Nat) = 1 then 0 else _; rw [if_pos rfl]
      | ⟨1, _⟩ => show m.val = if (512 : Nat) = 1 then 0 else m.val; rw [if_neg (by decide)])]
  refine congrArg (fun s => Ideal.tanh (s + x2 (ix2 (0 : Fin 1) m)) * x3 (ix2 m v)) (Finset.sum_congr rfl fun d _ => ?_)
  show shapeCast ⟨2, ![L, 512]⟩ x0 hx (ix2 r d) * x1 (ix2 d m) = _
  rw [shapeCast_dropUnit_apply]
  refine congrArg (fun k => x0 k * x1 (ix2 d m)) (funext fun a => ?_)
  match a with | ⟨0, _⟩ => rfl | ⟨1, _⟩ => rfl | ⟨2, _⟩ => rfl

end Cert.ProjPayload

end
-- ==== Proof.JointSpec.lean ====
/-
  The mathematics of the joint network, stated once over plain arrays of extended reals.

  An encoder row x[b, r, :] is sent through a dense layer, `h[m] = tanh(∑_d x[b, r, d] · W[d, m] + bias[m])`, and
  projected, `proj[b, r, v] = ∑_m h[m] · Wj[m, v]` (`proj`). The output at (b, t, u, v) adds the encoder's
  projection at (b, t, v), the decoder's at (b, u, v) and the output bias at v (`joint`).

  The reference instead concatenates the two hidden rows along the feature axis, applies tanh, and contracts the
  1024 features against the whole of Wj. Because the concatenation takes features 0..511 from the encoder row and
  512..1023 from the decoder row, the sum over the 1024 features is the sum over the first 512 plus the sum over
  the last 512 (`Fin.sum_univ_add`: only associativity and commutativity of + on the extended reals, so no
  finiteness is needed), and each half is one of the two projections with the matching half of Wj's rows.
-/
import Idealize.ShloMosaic.PureOps.Ideal
import Idealize.ShloMosaic.Lib.ValueIdx

noncomputable section

namespace Cert.JointSpec

open Idealize.ShloMosaic Idealize.ShloMosaic.ValueIdx

/-- One row's hidden activation at feature m: tanh of the dense layer's output. -/
def hidden {L : Nat} (x : FVec Ideal ⟨3, ![4, L, 512]⟩ .f32) (w : FVec Ideal ⟨2, ![512, 512]⟩ .f32)
    (bias : Fin 512 → EReal) (z : Fin 4) (r : Fin L) (m : Fin 512) : EReal :=
  Ideal.tanh ((∑ d : Fin 512, x (ix3 z r d) * w (ix2 d m)) + bias m)

/-- A row's projection at output feature v against 512 rows of the output matrix, given as a function of (m, v). -/
def projAt {L : Nat} (x : FVec Ideal ⟨3, ![4, L, 512]⟩ .f32) (w : FVec Ideal ⟨2, ![512, 512]⟩ .f32)
    (bias : Fin 512 → EReal) (wj : Fin 512 → Fin 1024 → EReal) (z : Fin 4) (r : Fin L) (v : Fin 1024) : EReal :=
  ∑ m : Fin 512, hidden x w bias z r m * wj m v

/-- The broadcast-add at (b, t, u, v): the encoder's projection at (b, t, v) plus the decoder's at (b, u, v), then the bias at v. -/
def addAt (fe : FVec Ideal ⟨3, ![4, 256, 1024]⟩ .f32) (gd : FVec Ideal ⟨3, ![4, 64, 1024]⟩ .f32) (bias : Fin 1024 → EReal)
    (b : Fin 4) (t : Fin 256) (u : Fin 64) (v : Fin 1024) : EReal :=
  (fe (ix3 b t v) + gd (ix3 b u v)) + bias v

/-- The whole result at (b, t, u, v), from the eight argument arrays. -/
def resultAt (f : FVec Ideal ⟨3, ![4, 256, 512]⟩ .f32) (g : FVec Ideal ⟨3, ![4, 64, 512]⟩ .f32)
    (We : FVec Ideal ⟨2, ![512, 512]⟩ .f32) (be : FVec Ideal ⟨1, ![512]⟩ .f32)
    (Wd : FVec Ideal ⟨2, ![512, 512]⟩ .f32) (bd : FVec Ideal ⟨1, ![512]⟩ .f32)
    (Wj : FVec Ideal ⟨2, ![1024, 1024]⟩ .f32) (bj : FVec Ideal ⟨1, ![1024]⟩ .f32)
    (b : Fin 4) (t : Fin 256) (u : Fin 64) (v : Fin 1024) : EReal :=
  (projAt f We (fun m => be (ix1 m)) (fun m v => Wj (ix2 (Fin.castAdd 512 m) v)) b t v
    + projAt g Wd (fun m => bd (ix1 m)) (fun m v => Wj (ix2 (Fin.natAdd 512 m) v)) b u v)
  + bj (ix1 v)

/-- The result array: `resultAt` at the four coordinates of an index. -/
def result (f : FVec Ideal ⟨3, ![4, 256, 512]⟩ .f32) (g : FVec Ideal ⟨3, ![4, 64, 512]⟩ .f32)
    (We : FVec Ideal ⟨2, ![512, 512]⟩ .f32) (be : FVec Ideal ⟨1, ![512]⟩ .f32)
    (Wd : FVec Ideal ⟨2, ![512, 512]⟩ .f32) (bd : FVec Ideal ⟨1, ![512]⟩ .f32)
    (Wj : FVec Ideal ⟨2, ![1024, 1024]⟩ .f32) (bj : FVec Ideal ⟨1, ![1024]⟩ .f32) :
    FVec Ideal ⟨4, ![4, 256, 64, 1024]⟩ .f32 :=
  fun i => resultAt f g We be Wd bd Wj bj ⟨(i 0).val, (i 0).isLt⟩ ⟨(i 1).val, (i 1).isLt⟩ ⟨(i 2).val, (i 2).isLt⟩ ⟨(i 3).val, (i 3).isLt⟩

/-- The concatenated-feature form: a sum over 1024 features whose first 512 terms are `A` and last 512 are `B`
    is the sum of the two halves. -/
theorem sum_halves (F : Fin 1024 → EReal) :
    ∑ k : Fin 1024, F k = (∑ m : Fin 512, F (Fin.castAdd 512 m)) + ∑ m : Fin 512, F (Fin.natAdd 512 m) :=
  Fin.sum_univ_add (a := 512) (b := 512) F

end Cert.JointSpec

end
-- ==== Proof.Region0.lean ====
/-
  Region 0: the encoder's projection array.

  The grid has one point per batch element b; point b's output block is the whole [256, 1024] slab of batch b, and
  its input blocks are batch b's [256, 512] slab of the encoder input, the whole dense weight, the bias row and the
  first 512 rows of the output matrix. So after the region the array holds, at (b, r, v),
  `∑_m tanh(∑_d x[b, r, d] · w[d, m] + bias[0, m]) · wj[m, v]` of the arrays as the region finds them.
-/
import proofs.«111048_j21492016349402_1_alg».proof.Proof.Gen.KernelIdeal.Frame
import proofs.«111048_j21492016349402_1_alg».proof.Proof.ProjPayload
import proofs.«111048_j21492016349402_1_alg».proof.Proof.JointSpec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The stored block of the encoder's body at entry (0, r, v), from the four loaded blocks. -/
theorem payload_at (x0 : Vec Ideal S1x256x512 .f32) (x1 : Vec Ideal S512x512 .f32) (x2 : Vec Ideal S1x512 .f32)
    (x3 : Vec Ideal S512x1024 .f32) (r : Fin 256) (v : Fin 1024) :
    k0_pay1 (F := Ideal) x0 x1 x2 x3 (ix3 (0 : Fin 1) r v)
      = ∑ m : Fin 512, Ideal.tanh ((∑ d : Fin 512, x0 (ix3 (0 : Fin 1) r d) * x1 (ix2 d m)) + x2 (ix2 (0 : Fin 1) m)) * x3 (ix2 m v) :=
  ProjPayload.proj_payload_apply (L := 256) _ _ _ _ _ _ x0 x1 x2 x3 r v

/-- What the region leaves in its output array, as one function of the arrays it reads. -/
def arr (c : Dev nD) : FVec Ideal S4x256x1024 .f32 := fun i =>
  JointSpec.projAt (V c main_arg0) (V c main_arg2) (fun m => V c main_v2 (ix2 (0 : Fin 1) m)) (fun m v => V c main_v0 (ix2 m v))
    ⟨(i 0).val, (i 0).isLt⟩ ⟨(i 1).val, (i 1).isLt⟩ ⟨(i 2).val, (i 2).isLt⟩

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input slab and the output slab are batch t's; the other three
    windows stay at block 0. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Batch t's input slab read at (0, r, d) is the encoder input at (t, r, d). -/
theorem read_x (c : Dev nD) (t : Fin cfg0.N) (r : Fin 256) (d : Fin 512) :
    iblk0 V c 0 t (ix3 (0 : Fin 1) r d) = V c main_arg0 (ix3 (⟨t.val, t.isLt⟩ : Fin 4) r d) := by
  show V c main_arg0 (((cfg0.win 0).blk t).view.emb (ix3 (0 : Fin 1) r d)) = _
  refine congrArg (V c main_arg0) (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 512 + 1 * d.val = d.val; omega

/-- The dense weight's block is the whole weight. -/
theorem read_w (c : Dev nD) (t : Fin cfg0.N) (d : Fin 512) (m : Fin 512) :
    iblk0 V c 1 t (ix2 d m) = V c main_arg2 (ix2 d m) := by
  show V c main_arg2 (((cfg0.win 1).blk t).view.emb (ix2 d m)) = _
  refine congrArg (V c main_arg2) (funext fun a => Fin.ext ?_)
  obtain ⟨-, -, -, e0, e1, -⟩ := idx_facts t
  match a with
  | ⟨0, _⟩ => show win0_1.index t (0 : Fin 2) * 512 + 1 * d.val = d.val; omega
  | ⟨1, _⟩ => show win0_1.index t (1 : Fin 2) * 512 + 1 * m.val = m.val; omega

/-- The bias row's block is the whole row. -/
theorem read_b (c : Dev nD) (t : Fin cfg0.N) (m : Fin 512) :
    iblk0 V c 2 t (ix2 (0 : Fin 1) m) = V c main_v2 (ix2 (0 : Fin 1) m) := by
  show V c main_v2 (((cfg0.win 2).blk t).view.emb (ix2 (0 : Fin 1) m)) = _
  refine congrArg (V c main_v2) (funext fun a => Fin.ext ?_)
  obtain ⟨-, -, -, -, -, e0, e1, -⟩ := idx_facts t
  match a with
  | ⟨0, _⟩ => show win0_2.index t (0 : Fin 2) * 1 + 1 * 0 = 0; omega
  | ⟨1, _⟩ => show win0_2.index t (1 : Fin 2) * 512 + 1 * m.val = m.val; omega

/-- The output matrix's block is all of its 512 rows. -/
theorem read_wj (c : Dev nD) (t : Fin cfg0.N) (m : Fin 512) (v : Fin 1024) :
    iblk0 V c 3 t (ix2 m v) = V c main_v0 (ix2 m v) := by
  show V c main_v0 (((cfg0.win 3).blk t).view.emb (ix2 m v)) = _
  refine congrArg (V c main_v0) (funext fun a => Fin.ext ?_)
  obtain ⟨-, -, -, -, -, -, -, e0, e1, -⟩ := idx_facts t
  match a with
  | ⟨0, _⟩ => show win0_3.index t (0 : Fin 2) * 512 + 1 * m.val = m.val; omega
  | ⟨1, _⟩ => show win0_3.index t (1 : Fin 2) * 1024 + 1 * v.val = v.val; omega

/-- Point t's stored entry (0, r, v) is the projection of row (t, r) at v. -/
theorem point_eq (c : Dev nD) (t : Fin cfg0.N) (r : Fin 256) (v : Fin 1024) :
    k0_pay1 (F := Ideal) (iblk0 V c 0 t) (iblk0 V c 1 t) (iblk0 V c 2 t) (iblk0 V c 3 t) (ix3 (0 : Fin 1) r v)
      = JointSpec.projAt (V c main_arg0) (V c main_arg2) (fun m => V c main_v2 (ix2 (0 : Fin 1) m)) (fun m v => V c main_v0 (ix2 m v))
          (⟨t.val, t.isLt⟩ : Fin 4) r v := by
  refine (payload_at (iblk0 V c 0 t) (iblk0 V c 1 t) (iblk0 V c 2 t) (iblk0 V c 3 t) r v).trans ?_
  unfold JointSpec.projAt JointSpec.hidden
  refine Finset.sum_congr rfl fun m _ => ?_
  rw [read_b V c t m, read_wj V c t m v]
  refine congrArg (fun s => Ideal.tanh (s + V c main_v2 (ix2 (0 : Fin 1) m)) * V c main_v0 (ix2 m v)) (Finset.sum_congr rfl fun d _ => ?_)
  rw [read_x V c t r d, read_w V c t d m]

/-- What point t writes back is block t of `arr`. -/
theorem flushed_eq (c : Dev nD) (t : Fin cfg0.N) :
    (dat0 (F := Ideal) V c).flushed 4 t = ((cfg0.win 4).blk t).view.read (Elt Ideal) (arr V c) := by
  show (cfg0.win 4).cut (grid0.coords t) ((dat0 (F := Ideal) V c).after 4 t) = _
  rw [after0_4]
  unfold out0_4
  rw [View.canon_unit_zero hz3]
  simp only [View.ld_unit_zero (S := S1x256x512) hz3, View.ld_unit_zero (S := S512x512) hz2, View.ld_unit_zero (S := S1x512) hz2, View.ld_unit_zero (S := S512x1024) hz2]
  refine funext fun (j : S1x256x1024.Idx) => ?_
  obtain ⟨z, r, v, rfl⟩ : ∃ (z : Fin 1) (r : Fin 256) (v : Fin 1024), j = ix3 z r v := ⟨j 0, j 1, j 2, eq_ix3 j⟩
  obtain rfl : z = 0 := Subsingleton.elim _ _
  show k0_pay1 (F := Ideal) (iblk0 V c 0 t) (iblk0 V c 1 t) (iblk0 V c 2 t) (iblk0 V c 3 t) (ix3 (0 : Fin 1) r v)
    = arr V c (((cfg0.win 4).blk t).view.emb (ix3 (0 : Fin 1) r v))
  refine (point_eq V c t r v).trans ?_
  obtain ⟨-, -, -, -, -, -, -, -, -, e0, e1, e2⟩ := idx_facts t
  unfold arr
  show _ = JointSpec.projAt _ _ _ _ ⟨win0_4.index t (0 : Fin 3) * 1 + 1 * 0, _⟩ ⟨win0_4.index t (1 : Fin 3) * 256 + 1 * r.val, _⟩ ⟨win0_4.index t (2 : Fin 3) * 1024 + 1 * v.val, _⟩
  congr 1 <;> apply Fin.ext <;> dsimp only <;> omega

/-- An index of the array lies in point t's block iff each coordinate lies in the block's range on its axis. -/
theorem mem_blk (t : Fin cfg0.N) (i : S4x256x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v5).slice (win0_4.rect t)).set ↔ _
  rw [View.set_slice_whole, Rect.mem_set_unit]
  exact Iff.rfl

/-- Every index (b, r, v) of the array lies in the block of point b. -/
theorem cover (i : S4x256x1024.Idx) : ∃ t : Fin cfg0.N, (cfg0.win 4).flush t = true ∧ i ∈ ((cfg0.win 4).blk t).view.set := by
  have h0 : (i 0).val < 4 := (i 0).isLt
  have h1 : (i 1).val < 256 := (i 1).isLt
  have h2 : (i 2).val < 1024 := (i 2).isLt
  refine ⟨⟨(i 0).val, h0⟩, flush0_4 _, ?_⟩
  rw [mem_blk]
  obtain ⟨-, -, -, -, -, -, -, -, -, e0, e1, e2⟩ := idx_facts ⟨(i 0).val, h0⟩
  dsimp only at e0
  intro a
  match a with
  | ⟨0, _⟩ =>
    show win0_4.index ⟨(i 0).val, h0⟩ (0 : Fin 3) * 1 ≤ (i 0).val ∧ (i 0).val < win0_4.index ⟨(i 0).val, h0⟩ (0 : Fin 3) * 1 + 1
    omega
  | ⟨1, _⟩ =>
    show win0_4.index ⟨(i 0).val, h0⟩ (1 : Fin 3) * 256 ≤ (i 1).val ∧ (i 1).val < win0_4.index ⟨(i 0).val, h0⟩ (1 : Fin 3) * 256 + 256
    omega
  | ⟨2, _⟩ =>
    show win0_4.index ⟨(i 0).val, h0⟩ (2 : Fin 3) * 1024 ≤ (i 2).val ∧ (i 2).val < win0_4.index ⟨(i 0).val, h0⟩ (2 : Fin 3) * 1024 + 1024
    omega

/-- After the region its output array is `arr` of the arrays as the region found them. -/
theorem arr_eq (c : Dev nD) : (dat0 (F := Ideal) V c).arrAt 4 cfg0.N = arr V c :=
  (dat0 (F := Ideal) V c).arrAt_eq_of_cover 4 (arr V c) (fun t _ => flushed_eq V c t) cover

end Cert.KernelIdeal.Region0

end
-- ==== Proof.Region1.lean ====
/-
  Region 1: the decoder's projection array.

  The grid has one point per batch element b; point b's output block is the whole [64, 1024] slab of batch b, and
  its input blocks are batch b's [64, 512] slab of the decoder input, the whole dense weight, the bias row and the
  last 512 rows of the output matrix. So after the region the array holds, at (b, r, v),
  `∑_m tanh(∑_d x[b, r, d] · w[d, m] + bias[0, m]) · wj[m, v]` of the arrays as the region finds them.
-/
import proofs.«111048_j21492016349402_1_alg».proof.Proof.Gen.KernelIdeal.Frame
import proofs.«111048_j21492016349402_1_alg».proof.Proof.ProjPayload
import proofs.«111048_j21492016349402_1_alg».proof.Proof.JointSpec
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The stored block of the decoder's body at entry (0, r, v), from the four loaded blocks. -/
theorem payload_at (x0 : Vec Ideal S1x64x512 .f32) (x1 : Vec Ideal S512x512 .f32) (x2 : Vec Ideal S1x512 .f32)
    (x3 : Vec Ideal S512x1024 .f32) (r : Fin 64) (v : Fin 1024) :
    k1_pay1 (F := Ideal) x0 x1 x2 x3 (ix3 (0 : Fin 1) r v)
      = ∑ m : Fin 512, Ideal.tanh ((∑ d : Fin 512, x0 (ix3 (0 : Fin 1) r d) * x1 (ix2 d m)) + x2 (ix2 (0 : Fin 1) m)) * x3 (ix2 m v) :=
  ProjPayload.proj_payload_apply (L := 64) _ _ _ _ _ _ x0 x1 x2 x3 r v

/-- What the region leaves in its output array, as one function of the arrays it reads. -/
def arr (c : Dev nD) : FVec Ideal S4x64x1024 .f32 := fun i =>
  JointSpec.projAt (V c main_arg1) (V c main_arg4) (fun m => V c main_v3 (ix2 (0 : Fin 1) m)) (fun m v => V c main_v1 (ix2 m v))
    ⟨(i 0).val, (i 0).isLt⟩ ⟨(i 1).val, (i 1).isLt⟩ ⟨(i 2).val, (i 2).isLt⟩

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input slab and the output slab are batch t's; the other three
    windows stay at block 0. -/
theorem idx_facts : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- Batch t's input slab read at (0, r, d) is the decoder input at (t, r, d). -/
theorem read_x (c : Dev nD) (t : Fin cfg1.N) (r : Fin 64) (d : Fin 512) :
    iblk1 V c 0 t (ix3 (0 : Fin 1) r d) = V c main_arg1 (ix3 (⟨t.val, t.isLt⟩ : Fin 4) r d) := by
  show V c main_arg1 (((cfg1.win 0).blk t).view.emb (ix3 (0 : Fin 1) r d)) = _
  refine congrArg (V c main_arg1) (funext fun a => Fin.ext ?_)
  obtain ⟨e0, e1, e2, -⟩ := idx_facts t
  match a with
  | ⟨0, _⟩ => show win1_0.index t (0 : Fin 3) * 1 + 1 * 0 = t.val; omega
  | ⟨1, _⟩ => show win1_0.index t (1 : Fin 3) * 64 + 1 * r.val = r.val; omega
  | ⟨2, _⟩ => show win1_0.index t (2 : Fin 3) * 512 + 1 * d.val = d.val; omega

/-- The dense weight's block is the whole weight. -/
theorem read_w (c : Dev nD) (t : Fin cfg1.N) (d : Fin 512) (m : Fin 512) :
    iblk1 V c 1 t (ix2 d m) = V c main_arg4 (ix2 d m) := by
  show V c main_arg4 (((cfg1.win 1).blk t).view.emb (ix2 d m)) = _
  refine congrArg (V c main_arg4) (funext fun a => Fin.ext ?_)
  obtain ⟨-, -, -, e0, e1, -⟩ := idx_facts t
  match a with
  | ⟨0, _⟩ => show win1_1.index t (0 : Fin 2) * 512 + 1 * d.val = d.val; omega
  | ⟨1, _⟩ => show win1_1.index t (1 : Fin 2) * 512 + 1 * m.val = m.val; omega

/-- The bias row's block is the whole row. -/
theorem read_b (c : Dev nD) (t : Fin cfg1.N) (m : Fin 512) :
    iblk1 V c 2 t (ix2 (0 : Fin 1) m) = V c main_v3 (ix2 (0 : Fin 1) m) := by
  show V c main_v3 (((cfg1.win 2).blk t).view.emb (ix2 (0 : Fin 1) m)) = _
  refine congrArg (V c main_v3) (funext fun a => Fin.ext ?_)
  obtain ⟨-, -, -, -, -, e0, e1, -⟩ := idx_facts t
  match a with
  | ⟨0, _⟩ => show win1_2.index t (0 : Fin 2) * 1 + 1 * 0 = 0; omega
  | ⟨1, _⟩ => show win1_2.index t (1 : Fin 2) * 512 + 1 * m.val = m.val; omega

/-- The output matrix's block is all of its 512 rows. -/
theorem read_wj (c : Dev nD) (t : Fin cfg1.N) (m : Fin 512) (v : Fin 1024) :
    iblk1 V c 3 t (ix2 m v) = V c main_v1 (ix2 m v) := by
  show V c main_v1 (((cfg1.win 3).blk t).view.emb (ix2 m v)) = _
  refine congrArg (V c main_v1) (funext fun a => Fin.ext ?_)
  obtain ⟨-, -, -, -, -, -, -, e0, e1, -⟩ := idx_facts t
  match a with
  | ⟨0, _⟩ => show win1_3.index t (0 : Fin 2) * 512 + 1 * m.val = m.val; omega
  | ⟨1, _⟩ => show win1_3.index t (1 : Fin 2) * 1024 + 1 * v.val = v.val; omega

/-- Point t's stored entry (0, r, v) is the projection of row (t, r) at v. -/
theorem point_eq (c : Dev nD) (t : Fin cfg1.N) (r : Fin 64) (v : Fin 1024) :
    k1_pay1 (F := Ideal) (iblk1 V c 0 t) (iblk1 V c 1 t) (iblk1 V c 2 t) (iblk1 V c 3 t) (ix3 (0 : Fin 1) r v)
      = JointSpec.projAt (V c main_arg1) (V c main_arg4) (fun m => V c main_v3 (ix2 (0 : Fin 1) m)) (fun m v => V c main_v1 (ix2 m v))
          (⟨t.val, t.isLt⟩ : Fin 4) r v := by
  refine (payload_at (iblk1 V c 0 t) (iblk1 V c 1 t) (iblk1 V c 2 t) (iblk1 V c 3 t) r v).trans ?_
  unfold JointSpec.projAt JointSpec.hidden
  refine Finset.sum_congr rfl fun m _ => ?_
  rw [read_b V c t m, read_wj V c t m v]
  refine congrArg (fun s => Ideal.tanh (s + V c main_v3 (ix2 (0 : Fin 1) m)) * V c main_v1 (ix2 m v)) (Finset.sum_congr rfl fun d _ => ?_)
  rw [read_x V c t r d, read_w V c t d m]

/-- What point t writes back is block t of `arr`. -/
theorem flushed_eq (c : Dev nD) (t : Fin cfg1.N) :
    (dat1 (F := Ideal) V c).flushed 4 t = ((cfg1.win 4).blk t).view.read (Elt Ideal) (arr V c) := by
  show (cfg1.win 4).cut (grid1.coords t) ((dat1 (F := Ideal) V c).after 4 t) = _
  rw [after1_4]
  unfold out1_4
  rw [View.canon_unit_zero hz3]
  simp only [View.ld_unit_zero (S := S1x64x512) hz3, View.ld_unit_zero (S := S512x512) hz2, View.ld_unit_zero (S := S1x512) hz2, View.ld_unit_zero (S := S512x1024) hz2]
  refine funext fun (j : S1x64x1024.Idx) => ?_
  obtain ⟨z, r, v, rfl⟩ : ∃ (z : Fin 1) (r : Fin 64) (v : Fin 1024), j = ix3 z r v := ⟨j 0, j 1, j 2, eq_ix3 j⟩
  obtain rfl : z = 0 := Subsingleton.elim _ _
  show k1_pay1 (F := Ideal) (iblk1 V c 0 t) (iblk1 V c 1 t) (iblk1 V c 2 t) (iblk1 V c 3 t) (ix3 (0 : Fin 1) r v)
    = arr V c (((cfg1.win 4).blk t).view.emb (ix3 (0 : Fin 1) r v))
  refine (point_eq V c t r v).trans ?_
  obtain ⟨-, -, -, -, -, -, -, -, -, e0, e1, e2⟩ := idx_facts t
  unfold arr
  show _ = JointSpec.projAt _ _ _ _ ⟨win1_4.index t (0 : Fin 3) * 1 + 1 * 0, _⟩ ⟨win1_4.index t (1 : Fin 3) * 64 + 1 * r.val, _⟩ ⟨win1_4.index t (2 : Fin 3) * 1024 + 1 * v.val, _⟩
  congr 1 <;> apply Fin.ext <;> dsimp only <;> omega

/-- An index of the array lies in point t's block iff each coordinate lies in the block's range on its axis. -/
theorem mem_blk (t : Fin cfg1.N) (i : S4x64x1024.Idx) :
    i ∈ ((cfg1.win 4).blk t).view.set ↔ ∀ a : Fin 3, win1_4.index t a * S1x64x1024.size a ≤ (i a).val
      ∧ (i a).val < win1_4.index t a * S1x64x1024.size a + S1x64x1024.size a := by
  show i ∈ ((View.whole main_v6).slice (win1_4.rect t)).set ↔ _
  rw [View.set_slice_whole, Rect.mem_set_unit]
  exact Iff.rfl

/-- Every index (b, r, v) of the array lies in the block of point b. -/
theorem cover (i : S4x64x1024.Idx) : ∃ t : Fin cfg1.N, (cfg1.win 4).flush t = true ∧ i ∈ ((cfg1.win 4).blk t).view.set := by
  have h0 : (i 0).val < 4 := (i 0).isLt
  have h1 : (i 1).val < 64 := (i 1).isLt
  have h2 : (i 2).val < 1024 := (i 2).isLt
  refine ⟨⟨(i 0).val, h0⟩, flush1_4 _, ?_⟩
  rw [mem_blk]
  obtain ⟨-, -, -, -, -, -, -, -, -, e0, e1, e2⟩ := idx_facts ⟨(i 0).val, h0⟩
  dsimp only at e0
  intro a
  match a with
  | ⟨0, _⟩ =>
    show win1_4.index ⟨(i 0).val, h0⟩ (0 : Fin 3) * 1 ≤ (i 0).val ∧ (i 0).val < win1_4.index ⟨(i 0).val, h0⟩ (0 : Fin 3) * 1 + 1
    omega
  | ⟨1, _⟩ =>
    show win1_4.index ⟨(i 0).val, h0⟩ (1 : Fin 3) * 64 ≤ (i 1).val ∧ (i 1).val < win1_4.index ⟨(i 0).val, h0⟩ (1 : Fin 3) * 64 + 64
    omega
  | ⟨2, _⟩ =>
    show win1_4.index ⟨(i 0).val, h0⟩ (2 : Fin 3) * 1024 ≤ (i 2).val ∧ (i 2).val < win1_4.index ⟨(i 0).val, h0⟩ (2 : Fin 3) * 1024 + 1024
    omega

/-- After the region its output array is `arr` of the arrays as the region found them. -/
theorem arr_eq (c : Dev nD) : (dat1 (F := Ideal) V c).arrAt 4 cfg1.N = arr V c :=
  (dat1 (F := Ideal) V c).arrAt_eq_of_cover 4 (arr V c) (fun t _ => flushed_eq V c t) cover

end Cert.KernelIdeal.Region1

end
-- ==== Proof.JointPayload.lean ====
/-
  The broadcast-add kernel's stored value at one entry.

  The body reads a [1, 32, 1024] block of the encoder's projection, the [1, 64, 1024] block of the decoder's projection
  and the [1, 1024] bias row, inserts the unit axes that make them [1, 32, 1, 1024], [1, 1, 64, 1024] and
  [1, 1, 1, 1024], broadcasts all three to [1, 32, 64, 1024] and adds: first the two projections, then the bias.
  Casts and broadcasts only move indices, so entry (0, r, u, v) is `(fe[0, r, v] + gd[0, u, v]) + bias[0, v]`.
-/
import Idealize.ShloMosaic.Lib.Pipeline.Value
import Idealize.ShloMosaic.Lib.ValueIdx

noncomputable section

namespace Cert.JointPayload

open Idealize.ShloMosaic Idealize.ShloMosaic.ValueIdx

/-- Entry (0, r, u, v) of the stored block, from the three loaded blocks. -/
theorem joint_payload_apply
    (h0 : (⟨3, ![1, 32, 1024]⟩ : Shape).ShapeCasts ⟨3, ![1, 32, 1024]⟩)
    (h1 : (⟨3, ![1, 64, 1024]⟩ : Shape).ShapeCasts ⟨3, ![1, 64, 1024]⟩)
    (h2 : (⟨2, ![1, 1024]⟩ : Shape).ShapeCasts ⟨2, ![1, 1024]⟩)
    (c0 : (⟨3, ![1, 32, 1024]⟩ : Shape).ShapeCasts ⟨4, ![1, 32, 1, 1024]⟩)
    (c1 : (⟨3, ![1, 64, 1024]⟩ : Shape).ShapeCasts ⟨4, ![1, 1, 64, 1024]⟩)
    (c2 : (⟨2, ![1, 1024]⟩ : Shape).ShapeCasts ⟨4, ![1, 1, 1, 1024]⟩)
    (b0 : (⟨4, ![1, 32, 1, 1024]⟩ : Shape).Broadcasts ⟨4, ![1, 32, 64, 1024]⟩)
    (b1 : (⟨4, ![1, 1, 64, 1024]⟩ : Shape).Broadcasts ⟨4, ![1, 32, 64, 1024]⟩)
    (b2 : (⟨4, ![1, 1, 1, 1024]⟩ : Shape).Broadcasts ⟨4, ![1, 32, 64, 1024]⟩)
    (fe : FVec Ideal ⟨3, ![1, 32, 1024]⟩ .f32) (gd : FVec Ideal ⟨3, ![1, 64, 1024]⟩ .f32) (bias : FVec Ideal ⟨2, ![1, 1024]⟩ .f32)
    (r : Fin 32) (u : Fin 64) (v : Fin 1024) :
    addf (addf (broadcastTo ⟨4, ![1, 32, 64, 1024]⟩ (shapeCast ⟨4, ![1, 32, 1, 1024]⟩ (shapeCast ⟨3, ![1, 32, 1024]⟩ fe h0) c0) b0)
               (broadcastTo ⟨4, ![1, 32, 64, 1024]⟩ (shapeCast ⟨4, ![1, 1, 64, 1024]⟩ (shapeCast ⟨3, ![1, 64, 1024]⟩ gd h1) c1) b1))
         (broadcastTo ⟨4, ![1, 32, 64, 1024]⟩ (shapeCast ⟨4, ![1, 1, 1, 1024]⟩ (shapeCast ⟨2, ![1, 1024]⟩ bias h2) c2) b2)
      (ix4 (0 : Fin 1) r u v)
    = (fe (ix3 (0 : Fin 1) r v) + gd (ix3 (0 : Fin 1) u v)) + bias (ix2 (0 : Fin 1) v) := by
  rw [shapeCast_self, shapeCast_self, shapeCast_self]
  show (broadcastTo ⟨4, ![1, 32, 64, 1024]⟩ (shapeCast ⟨4, ![1, 32, 1, 1024]⟩ fe c0) b0 (ix4 (0 : Fin 1) r u v)
        + broadcastTo ⟨4, ![1, 32, 64, 1024]⟩ (shapeCast ⟨4, ![1, 1, 64, 1024]⟩ gd c1) b1 (ix4 (0 : Fin 1) r u v))
      + broadcastTo ⟨4, ![1, 32, 64, 1024]⟩ (shapeCast ⟨4, ![1, 1, 1, 1024]⟩ bias c2) b2 (ix4 (0 : Fin 1) r u v) = _
  rw [broadcastTo_apply _ b0 (ix4 (0 : Fin 1) r u v) (ix4 (0 : Fin 1) r (0 : Fin 1) v) (fun a => by
        match a with
        | ⟨0, _⟩ => show 0 = if (1 : Nat) = 1 then 0 else _; rw [if_pos rfl]
        | ⟨1, _⟩ => show r.val = if (32 : Nat) = 1 then 0 else r.val; rw [if_neg (by decide)]
        | ⟨2, _⟩ => show 0 = if (1 : Nat) = 1 then 0 else _; rw [if_pos rfl]
        | ⟨3, _⟩ => show v.val = if (1024 : Nat) = 1 then 0 else v.val; rw [if_neg (by decide)]),
      broadcastTo_apply _ b1 (ix4 (0 : Fin 1) r u v) (ix4 (0 : Fin 1) (0 : Fin 1) u v) (fun a => by
        match a with
        | ⟨0, _⟩ => show 0 = if (1 : Nat) = 1 then 0 else _; rw [if_pos rfl]
        | ⟨1, _⟩ => show 0 = if (1 : Nat) = 1 then 0 else _; rw [if_pos rfl]
        | ⟨2, _⟩ => show u.val = if (64 : Nat) = 1 then 0 else u.val; rw [if_neg (by decide)]
        | ⟨3, _⟩ => show v.val = if (1024 : Nat) = 1 then 0 else v.val; rw [if_neg (by decide)]),
      broadcastTo_apply _ b2 (ix4 (0 : Fin 1) r u v) (ix4 (0 : Fin 1) (0 : Fin 1) (0 : Fin 1) v) (fun a => by
        match a with
        | ⟨0, _⟩ => show 0 = if (1 : Nat) = 1 then 0 else _; rw [if_pos rfl]
        | ⟨1, _⟩ => show 0 = if (1 : Nat) = 1 then 0 else _; rw [if_pos rfl]
        | ⟨2, _⟩ => show 0 = if (1 : Nat) = 1 then 0 else _; rw [if_pos rfl]
        | ⟨3, _⟩ => show v.val = if (1024 : Nat) = 1 then 0 else v.val; rw [if_neg (by decide)]),
      shapeCast_apply fe c0 (ix4 (0 : Fin 1) r (0 : Fin 1) v) (ix3 (0 : Fin 1) r v) (by
        rw [Shape.rowMajor_val_three, Shape.rowMajor_val_four]
        show (0 * 32 + r.val) * 1024 + v.val = ((0 * 32 + r.val) * 1 + 0) * 1024 + v.val
        omega),
      shapeCast_apply gd c1 (ix4 (0 : Fin 1) (0 : Fin 1) u v) (ix3 (0 : Fin 1) u v) (by
        rw [Shape.rowMajor_val_three, Shape.rowMajor_val_four]
        show (0 * 64 + u.val) * 1024 + v.val = ((0 * 1 + 0) * 64 + u.val) * 1024 + v.val
        omega),
      shapeCast_apply bias c2 (ix4 (0 : Fin 1) (0 : Fin 1) (0 : Fin 1) v) (ix2 (0 : Fin 1) v) (by
        rw [Shape.rowMajor_val_two, Shape.rowMajor_val_four]
        show 0 * 1024 + v.val = ((0 * 1 + 0) * 1 + 0) * 1024 + v.val
        omega)]

end Cert.JointPayload

end
-- ==== Proof.Region2.lean ====
/-
  Region 2: the broadcast-add.

  The grid is 4 × 8: point (b, s) writes the [32, 64, 1024] slab of batch b and rows 32·s .. 32·s + 31, reading the
  same 32 rows of batch b of the encoder's projection, all 64 rows of batch b of the decoder's projection, and the bias
  row. So after the region the output array holds, at (b, t, u, v), `(fe[b, t, v] + gd[b, u, v]) + bias[0, v]` of the
  arrays as the region finds them.
-/
import proofs.«111048_j21492016349402_1_alg».proof.Proof.Gen.KernelIdeal.Frame
import proofs.«111048_j21492016349402_1_alg».proof.Proof.JointPayload
import proofs.«111048_j21492016349402_1_alg».proof.Proof.JointSpec
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The stored block of the body at entry (0, r, u, v), from the three loaded blocks. -/
theorem payload_at (x0 : Vec Ideal S1x32x1024 .f32) (x1 : Vec Ideal S1x64x1024 .f32) (x2 : Vec Ideal S1x1024 .f32)
    (r : Fin 32) (u : Fin 64) (v : Fin 1024) :
    k2_pay1 (F := Ideal) x0 x1 x2 (ix4 (0 : Fin 1) r u v)
      = (x0 (ix3 (0 : Fin 1) r v) + x1 (ix3 (0 : Fin 1) u v)) + x2 (ix2 (0 : Fin 1) v) :=
  JointPayload.joint_payload_apply _ _ _ _ _ _ _ _ _ x0 x1 x2 r u v

/-- What the region leaves in its output array, as one function of the arrays it reads. -/
def arr (c : Dev nD) : FVec Ideal S4x256x64x1024 .f32 := fun i =>
  JointSpec.addAt (V c main_v5) (V c main_v6) (fun v => V c main_v4 (ix2 (0 : Fin 1) v))
    ⟨(i 0).val, (i 0).isLt⟩ ⟨(i 1).val, (i 1).isLt⟩ ⟨(i 2).val, (i 2).isLt⟩ ⟨(i 3).val, (i 3).isLt⟩

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the encoder block moves with the output block on batch and row block, the
    decoder block on batch only, the bias stays; the output's trailing block indices are 0 and the leading ones in range. -/
theorem idx_facts : ∀ t : Fin cfg2.N, win2_0.index t (0 : Fin 3) = win2_3.index t (0 : Fin 4)
    ∧ win2_0.index t (1 : Fin 3) = win2_3.index t (1 : Fin 4) ∧ win2_0.index t (2 : Fin 3) = 0
    ∧ win2_1.index t (0 : Fin 3) = win2_3.index t (0 : Fin 4) ∧ win2_1.index t (1 : Fin 3) = 0 ∧ win2_1.index t (2 : Fin 3) = 0
    ∧ win2_2.index t (0 : Fin 2) = 0 ∧ win2_2.index t (1 : Fin 2) = 0
    ∧ win2_3.index t (2 : Fin 4) = 0 ∧ win2_3.index t (3 : Fin 4) = 0
    ∧ win2_3.index t (0 : Fin 4) ≤ 3 ∧ win2_3.index t (1 : Fin 4) ≤ 7 :=
  (by decide +kernel : ∀ t : Fin grid2.N, _)

/-- Every (batch, row block) pair is some point's. -/
theorem idx_onto : ∀ (q0 : Fin 4) (q1 : Fin 8), ∃ t : Fin cfg2.N, win2_3.index t (0 : Fin 4) = q0.val ∧ win2_3.index t (1 : Fin 4) = q1.val :=
  (by decide +kernel : ∀ (q0 : Fin 4) (q1 : Fin 8), ∃ t : Fin grid2.N, win2_3.index t (0 : Fin 4) = q0.val ∧ win2_3.index t (1 : Fin 4) = q1.val)

/-- The encoder block at (0, r, v) is the encoder's projection at the output block's batch and row 32·s + r. -/
theorem read_fe (c : Dev nD) (t : Fin cfg2.N) (r : Fin 32) (v : Fin 1024) (k : S4x256x1024.Idx)
    (h0 : (k 0).val = win2_3.index t (0 : Fin 4)) (h1 : (k 1).val = win2_3.index t (1 : Fin 4) * 32 + r.val) (h2 : (k 2).val = v.val) :
    iblk2 V c 0 t (ix3 (0 : Fin 1) r v) = V c main_v5 k := by
  show V c main_v5 (((cfg2.win 0).blk t).view.emb (ix3 (0 : Fin 1) r v)) = _
  refine congrArg (V c main_v5) (funext fun a => Fin.ext ?_)
  obtain ⟨e0, e1, e2, -⟩ := idx_facts t
  match a with
  | ⟨0, _⟩ => show win2_0.index t (0 : Fin 3) * 1 + 1 * 0 = (k 0).val; omega
  | ⟨1, _⟩ => show win2_0.index t (1 : Fin 3) * 32 + 1 * r.val = (k 1).val; omega
  | ⟨2, _⟩ => show win2_0.index t (2 : Fin 3) * 1024 + 1 * v.val = (k 2).val; omega

/-- The decoder block at (0, u, v) is the decoder's projection at the output block's batch. -/
theorem read_gd (c : Dev nD) (t : Fin cfg2.N) (u : Fin 64) (v : Fin 1024) (k : S4x64x1024.Idx)
    (h0 : (k 0).val = win2_3.index t (0 : Fin 4)) (h1 : (k 1).val = u.val) (h2 : (k 2).val = v.val) :
    iblk2 V c 1 t (ix3 (0 : Fin 1) u v) = V c main_v6 k := by
  show V c main_v6 (((cfg2.win 1).blk t).view.emb (ix3 (0 : Fin 1) u v)) = _
  refine congrArg (V c main_v6) (funext fun a => Fin.ext ?_)
  obtain ⟨-, -, -, e0, e1, e2, -⟩ := idx_facts t
  match a with
  | ⟨0, _⟩ => show win2_1.index t (0 : Fin 3) * 1 + 1 * 0 = (k 0).val; omega
  | ⟨1, _⟩ => show win2_1.index t (1 : Fin 3) * 64 + 1 * u.val = (k 1).val; omega
  | ⟨2, _⟩ => show win2_1.index t (2 : Fin 3) * 1024 + 1 * v.val = (k 2).val; omega

/-- The bias block is the whole bias row. -/
theorem read_bias (c : Dev nD) (t : Fin cfg2.N) (v : Fin 1024) (k : S1x1024.Idx)
    (h0 : (k 0).val = 0) (h1 : (k 1).val = v.val) :
    iblk2 V c 2 t (ix2 (0 : Fin 1) v) = V c main_v4 k := by
  show V c main_v4 (((cfg2.win 2).blk t).view.emb (ix2 (0 : Fin 1) v)) = _
  refine congrArg (V c main_v4) (funext fun a => Fin.ext ?_)
  obtain ⟨-, -, -, -, -, -, e0, e1, -⟩ := idx_facts t
  match a with
  | ⟨0, _⟩ => show win2_2.index t (0 : Fin 2) * 1 + 1 * 0 = (k 0).val; omega
  | ⟨1, _⟩ => show win2_2.index t (1 : Fin 2) * 1024 + 1 * v.val = (k 1).val; omega

/-- What point t writes back is block t of `arr`. -/
theorem flushed_eq (c : Dev nD) (t : Fin cfg2.N) :
    (dat2 (F := Ideal) V c).flushed 3 t = ((cfg2.win 3).blk t).view.read (Elt Ideal) (arr V c) := by
  show (cfg2.win 3).cut (grid2.coords t) ((dat2 (F := Ideal) V c).after 3 t) = _
  rw [after2_3]
  unfold out2_3
  rw [View.canon_unit_zero hz4]
  simp only [View.ld_unit_zero (S := S1x32x1024) hz3, View.ld_unit_zero (S := S1x64x1024) hz3, View.ld_unit_zero (S := S1x1024) hz2]
  refine funext fun (j : S1x32x64x1024.Idx) => ?_
  obtain ⟨z, r, u, v, rfl⟩ : ∃ (z : Fin 1) (r : Fin 32) (u : Fin 64) (v : Fin 1024), j = ix4 z r u v := ⟨j 0, j 1, j 2, j 3, eq_ix4 j⟩
  obtain rfl : z = 0 := Subsingleton.elim _ _
  show k2_pay1 (F := Ideal) (iblk2 V c 0 t) (iblk2 V c 1 t) (iblk2 V c 2 t) (ix4 (0 : Fin 1) r u v)
    = arr V c (((cfg2.win 3).blk t).view.emb (ix4 (0 : Fin 1) r u v))
  refine (payload_at (iblk2 V c 0 t) (iblk2 V c 1 t) (iblk2 V c 2 t) r u v).trans ?_
  obtain ⟨-, -, -, -, -, -, -, -, e2, e3, -, -⟩ := idx_facts t
  unfold arr JointSpec.addAt
  refine congrArg₂ (· + ·) (congrArg₂ (· + ·) (read_fe V c t r v _ ?_ ?_ ?_) (read_gd V c t u v _ ?_ ?_ ?_)) (read_bias V c t v _ ?_ ?_)
  · show win2_3.index t (0 : Fin 4) * 1 + 1 * 0 = _; omega
  · show win2_3.index t (1 : Fin 4) * 32 + 1 * r.val = _; omega
  · show win2_3.index t (3 : Fin 4) * 1024 + 1 * v.val = _; omega
  · show win2_3.index t (0 : Fin 4) * 1 + 1 * 0 = _; omega
  · show win2_3.index t (2 : Fin 4) * 64 + 1 * u.val = _; omega
  · show win2_3.index t (3 : Fin 4) * 1024 + 1 * v.val = _; omega
  · rfl
  · show win2_3.index t (3 : Fin 4) * 1024 + 1 * v.val = _; omega

/-- An index of the array lies in point t's block iff each coordinate lies in the block's range on its axis. -/
theorem mem_blk (t : Fin cfg2.N) (i : S4x256x64x1024.Idx) :
    i ∈ ((cfg2.win 3).blk t).view.set ↔ ∀ a : Fin 4, win2_3.index t a * S1x32x64x1024.size a ≤ (i a).val
      ∧ (i a).val < win2_3.index t a * S1x32x64x1024.size a + S1x32x64x1024.size a := by
  show i ∈ ((View.whole main_v7).slice (win2_3.rect t)).set ↔ _
  rw [View.set_slice_whole, Rect.mem_set_unit]
  exact Iff.rfl

/-- Every index (b, t, u, v) lies in the block of the point with batch b and row block t / 32. -/
theorem cover (i : S4x256x64x1024.Idx) : ∃ t : Fin cfg2.N, (cfg2.win 3).flush t = true ∧ i ∈ ((cfg2.win 3).blk t).view.set := by
  have h0 : (i 0).val < 4 := (i 0).isLt
  have h1 : (i 1).val < 256 := (i 1).isLt
  have h2 : (i 2).val < 64 := (i 2).isLt
  have h3 : (i 3).val < 1024 := (i 3).isLt
  obtain ⟨t, q0, q1⟩ := idx_onto ⟨(i 0).val, h0⟩ ⟨(i 1).val / 32, by omega⟩
  dsimp only at q0 q1
  obtain ⟨-, -, -, -, -, -, -, -, e2, e3, -, -⟩ := idx_facts t
  refine ⟨t, flush2_3 t, ?_⟩
  rw [mem_blk]
  intro a
  match a with
  | ⟨0, _⟩ =>
    show win2_3.index t (0 : Fin 4) * 1 ≤ (i 0).val ∧ (i 0).val < win2_3.index t (0 : Fin 4) * 1 + 1
    omega
  | ⟨1, _⟩ =>
    show win2_3.index t (1 : Fin 4) * 32 ≤ (i 1).val ∧ (i 1).val < win2_3.index t (1 : Fin 4) * 32 + 32
    omega
  | ⟨2, _⟩ =>
    show win2_3.index t (2 : Fin 4) * 64 ≤ (i 2).val ∧ (i 2).val < win2_3.index t (2 : Fin 4) * 64 + 64
    omega
  | ⟨3, _⟩ =>
    show win2_3.index t (3 : Fin 4) * 1024 ≤ (i 3).val ∧ (i 3).val < win2_3.index t (3 : Fin 4) * 1024 + 1024
    omega

/-- After the region its output array is `arr` of the arrays as the region found them. -/
theorem arr_eq (c : Dev nD) : (dat2 (F := Ideal) V c).arrAt 3 cfg2.N = arr V c :=
  (dat2 (F := Ideal) V c).arrAt_eq_of_cover 3 (arr V c) (fun t _ => flushed_eq V c t) cover

end Cert.KernelIdeal.Region2

end
-- ==== Proof.Chain.lean ====
/-
  From the launch memory to the result buffer: the three regions chained.

  Before the first region the host slices the output matrix Wj into its first and last 512 rows and gives the three
  bias vectors a leading unit axis; nothing else is written, so the arguments are still as launched. Region 0 leaves the
  encoder's projection of (f, We, be, Wj's first rows), region 1 the decoder's of (g, Wd, bd, Wj's last rows), each
  region finding untouched what the earlier ones did not write, and region 2 adds the two projections and the bias.
  So the result buffer ends at the specification's `result` of the eight arguments.
-/
import proofs.«111048_j21492016349402_1_alg».proof.Proof.Region0
import proofs.«111048_j21492016349402_1_alg».proof.Proof.Region1
import proofs.«111048_j21492016349402_1_alg».proof.Proof.Region2
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the host stretch -/

theorem host_f (c : Dev nD) : W1 m ρ c (Proc.devRef .tc main_arg0) = m ((c : Thread nD τ).loc main_arg0) := by
  show StableHlo.after hostOps0 (W0 m ρ c) (Proc.devRef .tc main_arg0) = _
  after_results
theorem host_g (c : Dev nD) : W1 m ρ c (Proc.devRef .tc main_arg1) = m ((c : Thread nD τ).loc main_arg1) := by
  show StableHlo.after hostOps0 (W0 m ρ c) (Proc.devRef .tc main_arg1) = _
  after_results
theorem host_We (c : Dev nD) : W1 m ρ c (Proc.devRef .tc main_arg2) = m ((c : Thread nD τ).loc main_arg2) := by
  show StableHlo.after hostOps0 (W0 m ρ c) (Proc.devRef .tc main_arg2) = _
  after_results
theorem host_Wd (c : Dev nD) : W1 m ρ c (Proc.devRef .tc main_arg4) = m ((c : Thread nD τ).loc main_arg4) := by
  show StableHlo.after hostOps0 (W0 m ρ c) (Proc.devRef .tc main_arg4) = _
  after_results

/-- Row k of the first slice is row k of Wj. -/
theorem host_Wj_lo (c : Dev nD) (k : Fin 512) (v : Fin 1024) :
    W1 m ρ c (Proc.devRef .tc main_v0) (ix2 k v) = m ((c : Thread nD τ).loc main_arg6) (ix2 (Fin.castAdd 512 k) v) := by
  show StableHlo.after hostOps0 (W0 m ρ c) (Proc.devRef .tc main_v0) (ix2 k v) = _
  after_results
  exact extractStridedSlice_apply _ _ _ _ _ (fun a => by
    match a with
    | ⟨0, _⟩ => show k.val = 0 + k.val; omega
    | ⟨1, _⟩ => show v.val = 0 + v.val; omega)

/-- Row k of the second slice is row 512 + k of Wj. -/
theorem host_Wj_hi (c : Dev nD) (k : Fin 512) (v : Fin 1024) :
    W1 m ρ c (Proc.devRef .tc main_v1) (ix2 k v) = m ((c : Thread nD τ).loc main_arg6) (ix2 (Fin.natAdd 512 k) v) := by
  show StableHlo.after hostOps0 (W0 m ρ c) (Proc.devRef .tc main_v1) (ix2 k v) = _
  after_results
  exact extractStridedSlice_apply _ _ _ _ _ (fun a => by
    match a with
    | ⟨0, _⟩ => show 512 + k.val = 512 + k.val; rfl
    | ⟨1, _⟩ => show v.val = 0 + v.val; omega)

/-- The reshaped encoder bias at (0, k) is be[k]. -/
theorem host_be (c : Dev nD) (k : Fin 512) :
    W1 m ρ c (Proc.devRef .tc main_v2) (ix2 (0 : Fin 1) k) = m ((c : Thread nD τ).loc main_arg3) (ix1 k) := by
  show StableHlo.after hostOps0 (W0 m ρ c) (Proc.devRef .tc main_v2) (ix2 (0 : Fin 1) k) = _
  after_results
  show shapeCast S1x512 (m ((c : Thread nD τ).loc main_arg3)) shapeCasts_S512_S1x512 (ix2 (0 : Fin 1) k) = _
  exact shapeCast_a_1a_apply _ _ 0 k

/-- The reshaped decoder bias at (0, k) is bd[k]. -/
theorem host_bd (c : Dev nD) (k : Fin 512) :
    W1 m ρ c (Proc.devRef .tc main_v3) (ix2 (0 : Fin 1) k) = m ((c : Thread nD τ).loc main_arg5) (ix1 k) := by
  show StableHlo.after hostOps0 (W0 m ρ c) (Proc.devRef .tc main_v3) (ix2 (0 : Fin 1) k) = _
  after_results
  show shapeCast S1x512 (m ((c : Thread nD τ).loc main_arg5)) shapeCasts_S512_S1x512 (ix2 (0 : Fin 1) k) = _
  exact shapeCast_a_1a_apply _ _ 0 k

/-- The reshaped output bias at (0, v) is bj[v]. -/
theorem host_bj (c : Dev nD) (v : Fin 1024) :
    W1 m ρ c (Proc.devRef .tc main_v4) (ix2 (0 : Fin 1) v) = m ((c : Thread nD τ).loc main_arg7) (ix1 v) := by
  show StableHlo.after hostOps0 (W0 m ρ c) (Proc.devRef .tc main_v4) (ix2 (0 : Fin 1) v) = _
  after_results
  show shapeCast S1x1024 (m ((c : Thread nD τ).loc main_arg7)) shapeCasts_S1024_S1x1024 (ix2 (0 : Fin 1) v) = _
  exact shapeCast_a_1a_apply _ _ 0 v

/-! ## What each region finds and leaves -/

/-- Region 0's output array, read when region 2 is entered (region 1 does not write it), at (b, t, v). -/
theorem enc_at (c : Dev nD) (b : Fin 4) (t : Fin 256) (v : Fin 1024) :
    V3 m ρ c main_v5 (ix3 b t v)
      = JointSpec.projAt (m ((c : Thread nD τ).loc main_arg0)) (m ((c : Thread nD τ).loc main_arg2)) (fun k => m ((c : Thread nD τ).loc main_arg3) (ix1 k)) (fun k v => m ((c : Thread nD τ).loc main_arg6) (ix2 (Fin.castAdd 512 k) v)) b t v := by
  have h : V3 m ρ c main_v5 = Region0.arr (V1 m ρ) c := by
    show W3 m ρ c (Proc.devRef .tc main_v5) = _
    rw [W3_of_ne m ρ c main_v5 (by decide)]
    exact (W2_arr m ρ c 4).trans (Region0.arr_eq (V1 m ρ) c)
  rw [h]
  show JointSpec.projAt (W1 m ρ c (Proc.devRef .tc main_arg0)) (W1 m ρ c (Proc.devRef .tc main_arg2))
      (fun k => W1 m ρ c (Proc.devRef .tc main_v2) (ix2 (0 : Fin 1) k)) (fun k v => W1 m ρ c (Proc.devRef .tc main_v0) (ix2 k v)) b t v = _
  rw [host_f, host_We, funext fun k => host_be m ρ c k, funext fun k => funext fun v => host_Wj_lo m ρ c k v]

/-- Region 1's output array at (b, u, v). Region 1 finds its inputs as the host stretch left them: region 0 writes none. -/
theorem dec_at (c : Dev nD) (b : Fin 4) (u : Fin 64) (v : Fin 1024) :
    V3 m ρ c main_v6 (ix3 b u v)
      = JointSpec.projAt (m ((c : Thread nD τ).loc main_arg1)) (m ((c : Thread nD τ).loc main_arg4)) (fun k => m ((c : Thread nD τ).loc main_arg5) (ix1 k)) (fun k v => m ((c : Thread nD τ).loc main_arg6) (ix2 (Fin.natAdd 512 k) v)) b u v := by
  have h : V3 m ρ c main_v6 = Region1.arr (V2 m ρ) c := (W3_arr m ρ c 4).trans (Region1.arr_eq (V2 m ρ) c)
  rw [h]
  show JointSpec.projAt (W2 m ρ c (Proc.devRef .tc main_arg1)) (W2 m ρ c (Proc.devRef .tc main_arg4))
      (fun k => W2 m ρ c (Proc.devRef .tc main_v3) (ix2 (0 : Fin 1) k)) (fun k v => W2 m ρ c (Proc.devRef .tc main_v1) (ix2 k v)) b u v = _
  rw [W2_of_ne m ρ c main_arg1 (by decide), W2_of_ne m ρ c main_arg4 (by decide), W2_of_ne m ρ c main_v3 (by decide),
    W2_of_ne m ρ c main_v1 (by decide), host_g, host_Wd, funext fun k => host_bd m ρ c k, funext fun k => funext fun v => host_Wj_hi m ρ c k v]

/-- The bias row as region 2 finds it: neither earlier region writes it. -/
theorem bias_at (c : Dev nD) (v : Fin 1024) : V3 m ρ c main_v4 (ix2 (0 : Fin 1) v) = m ((c : Thread nD τ).loc main_arg7) (ix1 v) := by
  show W3 m ρ c (Proc.devRef .tc main_v4) (ix2 (0 : Fin 1) v) = _
  rw [W3_of_ne m ρ c main_v4 (by decide), W2_of_ne m ρ c main_v4 (by decide)]
  exact host_bj m ρ c v

/-- The result buffer after the run is the specification's `result` of the launch memory's arguments. -/
theorem result_eq (c : Dev nD) :
    W4 m ρ c (Proc.devRef .tc main_v7)
      = JointSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 3).trans ((Region2.arr_eq (V3 m ρ) c).trans ?_)
  funext i
  obtain ⟨b, t, u, v, rfl⟩ : ∃ (b : Fin 4) (t : Fin 256) (u : Fin 64) (v : Fin 1024), i = ix4 b t u v := ⟨i 0, i 1, i 2, i 3, eq_ix4 i⟩
  show JointSpec.addAt (V3 m ρ c main_v5) (V3 m ρ c main_v6) (fun v => V3 m ρ c main_v4 (ix2 (0 : Fin 1) v)) b t u v = JointSpec.resultAt _ _ _ _ _ _ _ _ b t u v
  unfold JointSpec.addAt JointSpec.resultAt
  exact congrArg₂ (· + ·) (congrArg₂ (· + ·) (enc_at m ρ c b t v) (dec_at m ρ c b u v)) (bias_at m ρ c v)

end Cert.KernelIdeal.Chain

end
-- ==== Proof.RefValue.lean ====
/-
  The reference's result, index by index, is the specification's `result`.

  The reference forms the encoder's pre-activation fe[b, t, m] = ∑_d f[b, t, d] · We[d, m] + be[m] and the decoder's
  gd[b, u, m] likewise, broadcasts both to [4, 256, 64, 512], concatenates them along the feature axis, applies tanh, and
  contracts the 1024 features with Wj, then adds bj. Feature k < 512 of the concatenation is fe[b, t, k] and feature
  512 + m is gd[b, u, m]; the sum over 1024 features splits into its two halves (`JointSpec.sum_halves`), and each half
  is one of the specification's projections.
-/
import proofs.«111048_j21492016349402_1_alg».proof.Proof.Gen.ReferenceIdeal.Read
import proofs.«111048_j21492016349402_1_alg».proof.Proof.JointSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S4x256x512, .f32⟩ : BufTy).Contents (Elt Ideal)) (x1 : (⟨S4x64x512, .f32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S1024x1024, .f32⟩ : BufTy).Contents (Elt Ideal)) (x7 : (⟨S1024, .f32⟩ : BufTy).Contents (Elt Ideal))

/-- The encoder's pre-activation at (b, t, m): the dense layer's sum plus the bias. -/
theorem enc_pre (b : Fin 4) (t : Fin 256) (m : Fin 512) :
    val_main_v3 (F := Ideal) x0 x2 x3 (ix3 b t m) = (∑ d : Fin 512, x0 (ix3 b t d) * x2 (ix2 d m)) + x3 (ix1 m) := by
  rw [val_main_v3_apply, val_main_v0_apply, val_main_v2_apply, val_main_v1_apply]
  have el : ∀ d : Fin 512, lidx_main_v0 (ix3 b t m) d = ix3 b t d := fun d => funext fun a => by
    match a with | ⟨0, _⟩ => rfl | ⟨1, _⟩ => rfl | ⟨2, _⟩ => rfl
  have er : ∀ d : Fin 512, ridx_main_v0 (ix3 b t m) d = ix2 d m := fun d => funext fun a => by
    match a with | ⟨0, _⟩ => rfl | ⟨1, _⟩ => rfl
  have eb : idx_main_v1 (idx_main_v2 (ix3 b t m)) = ix1 m := funext fun a => by
    match a with | ⟨0, _⟩ => rfl
  simp only [el, er, eb]
  rfl

/-- The decoder's pre-activation at (b, u, m). -/
theorem dec_pre (b : Fin 4) (u : Fin 64) (m : Fin 512) :
    val_main_v7 (F := Ideal) x1 x4 x5 (ix3 b u m) = (∑ d : Fin 512, x1 (ix3 b u d) * x4 (ix2 d m)) + x5 (ix1 m) := by
  rw [val_main_v7_apply, val_main_v4_apply, val_main_v6_apply, val_main_v5_apply]
  have el : ∀ d : Fin 512, lidx_main_v4 (ix3 b u m) d = ix3 b u d := fun d => funext fun a => by
    match a with | ⟨0, _⟩ => rfl | ⟨1, _⟩ => rfl | ⟨2, _⟩ => rfl
  have er : ∀ d : Fin 512, ridx_main_v4 (ix3 b u m) d = ix2 d m := fun d => funext fun a => by
    match a with | ⟨0, _⟩ => rfl | ⟨1, _⟩ => rfl
  have eb : idx_main_v5 (idx_main_v6 (ix3 b u m)) = ix1 m := funext fun a => by
    match a with | ⟨0, _⟩ => rfl
  simp only [el, er, eb]
  rfl

/-- Feature m < 512 of the concatenation at (b, t, u) is the encoder's pre-activation at (b, t, m). -/
theorem cat_left (b : Fin 4) (t : Fin 256) (u : Fin 64) (m : Fin 512) :
    val_main_v12 (F := Ideal) x0 x1 x2 x3 x4 x5 (ix4 b t u (Fin.castAdd 512 m)) = val_main_v3 (F := Ideal) x0 x2 x3 (ix3 b t m) := by
  unfold val_main_v12
  rw [concatenate_pair_apply_left (t := S4x256x64x1024) (s₁ := S4x256x64x512) (s₂ := S4x256x64x512) (3 : Fin 4) _ _ concatenates_S4x256x64x512_S4x256x64x512_S4x256x64x1024_d3
    (ix4 b t u (Fin.castAdd 512 m) : S4x256x64x1024.Idx) rfl (ix4 b t u m : S4x256x64x512.Idx) (fun a => by
      match a with | ⟨0, _⟩ => rfl | ⟨1, _⟩ => rfl | ⟨2, _⟩ => rfl | ⟨3, _⟩ => rfl)]
  rw [val_main_v9_apply, val_main_v8_apply]
  refine congrArg (val_main_v3 (F := Ideal) x0 x2 x3) (funext fun a => ?_)
  match a with | ⟨0, _⟩ => rfl | ⟨1, _⟩ => rfl | ⟨2, _⟩ => rfl

/-- Feature 512 + m of the concatenation at (b, t, u) is the decoder's pre-activation at (b, u, m). -/
theorem cat_right (b : Fin 4) (t : Fin 256) (u : Fin 64) (m : Fin 512) :
    val_main_v12 (F := Ideal) x0 x1 x2 x3 x4 x5 (ix4 b t u (Fin.natAdd 512 m)) = val_main_v7 (F := Ideal) x1 x4 x5 (ix3 b u m) := by
  unfold val_main_v12
  rw [concatenate_pair_apply_right (t := S4x256x64x1024) (s₁ := S4x256x64x512) (s₂ := S4x256x64x512) (3 : Fin 4) _ _ concatenates_S4x256x64x512_S4x256x64x512_S4x256x64x1024_d3
    (ix4 b t u (Fin.natAdd 512 m) : S4x256x64x1024.Idx) rfl rfl (ix4 b t u m : S4x256x64x512.Idx) (fun a ha => by
      match a with | ⟨0, _⟩ => rfl | ⟨1, _⟩ => rfl | ⟨2, _⟩ => rfl | ⟨3, _⟩ => exact absurd rfl ha)
    (by show m.val + 512 = 512 + m.val; omega)]
  rw [val_main_v11_apply, val_main_v10_apply]
  refine congrArg (val_main_v7 (F := Ideal) x1 x4 x5) (funext fun a => ?_)
  match a with | ⟨0, _⟩ => rfl | ⟨1, _⟩ => rfl | ⟨2, _⟩ => rfl

/-- The reference's result at (b, t, u, v). -/
theorem result_at (b : Fin 4) (t : Fin 256) (u : Fin 64) (v : Fin 1024) :
    val_main_v17 (F := Ideal) x0 x1 x2 x3 x4 x5 x6 x7 (ix4 b t u v) = JointSpec.resultAt x0 x1 x2 x3 x4 x5 x6 x7 b t u v := by
  rw [val_main_v17_apply, val_main_v14_apply, val_main_v16_apply, val_main_v15_apply]
  have el : ∀ k : Fin 1024, lidx_main_v14 (ix4 b t u v) k = ix4 b t u k := fun k => funext fun a => by
    match a with | ⟨0, _⟩ => rfl | ⟨1, _⟩ => rfl | ⟨2, _⟩ => rfl | ⟨3, _⟩ => rfl
  have er : ∀ k : Fin 1024, ridx_main_v14 (ix4 b t u v) k = ix2 k v := fun k => funext fun a => by
    match a with | ⟨0, _⟩ => rfl | ⟨1, _⟩ => rfl
  have eb : idx_main_v15 (idx_main_v16 (ix4 b t u v)) = ix1 v := funext fun a => by
    match a with | ⟨0, _⟩ => rfl
  simp only [el, er, eb]
  show (∑ k : Fin 1024, val_main_v13 (F := Ideal) x0 x1 x2 x3 x4 x5 (ix4 b t u k) * x6 (ix2 k v)) + x7 (ix1 v) = _
  rw [JointSpec.sum_halves]
  unfold JointSpec.resultAt JointSpec.projAt JointSpec.hidden
  refine congrArg (· + x7 (ix1 v)) (congrArg₂ (· + ·) (Finset.sum_congr rfl fun m _ => ?_) (Finset.sum_congr rfl fun m _ => ?_))
  · rw [val_main_v13_apply, cat_left, enc_pre]; rfl
  · rw [val_main_v13_apply, cat_right, dec_pre]; rfl

/-- The reference's result array is the specification's. -/
theorem result_eq : val_main_v17 (F := Ideal) x0 x1 x2 x3 x4 x5 x6 x7 = JointSpec.result x0 x1 x2 x3 x4 x5 x6 x7 := by
  funext i
  obtain ⟨b, t, u, v, rfl⟩ : ∃ (b : Fin 4) (t : Fin 256) (u : Fin 64) (v : Fin 1024), i = ix4 b t u v := ⟨i 0, i 1, i 2, i 3, eq_ix4 i⟩
  exact result_at x0 x1 x2 x3 x4 x5 x6 x7 b t u v

end Cert.ReferenceIdeal.RefValue

end
-- ==== Proof.lean ====
/-
  The kernel computes the joint network's output in three launches and the reference in one contraction; the two
  agree on the extended reals.

  Kernel: `out[b, t, u, v] = (fe[b, t, v] + gd[b, u, v]) + bj[v]` with
  `fe[b, t, v] = ∑_{m < 512} tanh(∑_d f[b, t, d] · We[d, m] + be[m]) · Wj[m, v]` and
  `gd[b, u, v] = ∑_{m < 512} tanh(∑_d g[b, u, d] · Wd[d, m] + bd[m]) · Wj[512 + m, v]`: the bf16 casts before the
  products are the identity on the extended reals, and a product accumulated into zero is the plain sum.
  Reference: `out[b, t, u, v] = ∑_{k < 1024} tanh(cat[b, t, u, k]) · Wj[k, v] + bj[v]`, where `cat` takes its first 512
  features from the encoder's pre-activation at (b, t) and its last 512 from the decoder's at (b, u).
  The sum over 1024 features is the sum of its two halves (associativity and commutativity of + only, so the inputs'
  finiteness is never used), and the halves are `fe` and `gd`.

  The frames of the two kernel programs are the generated ones, the reference's frame is its generated run; the ideal
  pass rewrote nothing, so `preserves` is trivial.
-/
import proofs.«111048_j21492016349402_1_alg».proof.Defs
import proofs.«111048_j21492016349402_1_alg».proof.Proof.Gen.Kernel
import proofs.«111048_j21492016349402_1_alg».proof.Proof.Gen.Kernel.Skeleton
import proofs.«111048_j21492016349402_1_alg».proof.Proof.Gen.Kernel.Launch
import proofs.«111048_j21492016349402_1_alg».proof.Proof.Gen.Kernel.Points
import proofs.«111048_j21492016349402_1_alg».proof.Proof.Gen.Kernel.Frame
import proofs.«111048_j21492016349402_1_alg».proof.Proof.Gen.KernelIdeal
import proofs.«111048_j21492016349402_1_alg».proof.Proof.Gen.KernelIdeal.Skeleton
import proofs.«111048_j21492016349402_1_alg».proof.Proof.Gen.KernelIdeal.Launch
import proofs.«111048_j21492016349402_1_alg».proof.Proof.Gen.KernelIdeal.Points
import proofs.«111048_j21492016349402_1_alg».proof.Proof.Gen.KernelIdeal.Frame
import proofs.«111048_j21492016349402_1_alg».proof.Proof.Gen.ReferenceIdeal
import proofs.«111048_j21492016349402_1_alg».proof.Proof.Gen.Pre_finite_inputs
import proofs.«111048_j21492016349402_1_alg».proof.Proof.Gen.ReferenceIdeal.Run
import proofs.«111048_j21492016349402_1_alg».proof.Proof.Gen.ReferenceIdeal.Read
import proofs.«111048_j21492016349402_1_alg».proof.Proof.LaunchValue
import proofs.«111048_j21492016349402_1_alg».proof.Proof.Chain
import proofs.«111048_j21492016349402_1_alg».proof.Proof.RefValue
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.Value.run (F := Ideal) m ρ)

/-- Both runs end with the result buffer at the specification's `result` of the (agreeing) arguments. -/
theorem algebraic : Cert.algebraic_KernelIdeal_ReferenceIdeal := by
  intro m ρ m' ρ' _ hagree
  refine ⟨fun c => Cert.JointSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v17_eq, Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
